-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S256x64 : Shape := ⟨2, ![256, 64]⟩
abbrev S500000 : Shape := ⟨1, ![500000]⟩
abbrev S128x384 : Shape := ⟨2, ![128, 384]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S256x64 : S_.BroadcastsInDim S256x64 (![] : Fin 0 → Fin S256x64.rank)
  reducesTo_S256x64_S_d0_1 : S256x64.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_v28 : IVec S_ 1) (main_v33 : IVec S500000 1) : IVec S_ 1 :=
  let main_c_12 : IVec S_ 1 := constantI S_ 1 1#1
  let main_v34 : IVec S_ 1 := (fun x v => Host.reduce IntOp.andi x v reducesTo_S500000_S_d0 h_S_) main_v33 main_c_12
  let main_v35 : IVec S_ 1 := andi main_v28 main_v34
  main_v35

def fn_part1 {F : FTy → Type} [FloatOps F] (main_arg4 : IVec S500000 32) (main_arg5 : FVec F S128x384 .f32) (main_arg6 : FVec F S128 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S500000 32 := broadcastInDim S500000 ![] bcast_S_S500000 main_c_10
  let main_v30 : IVec S500000 1 := cmpi .sge main_arg4 main_v29
  let main_c_11 : IVec S_ 32 := constantI S_ 32 256#32
  let main_v31 : IVec S500000 32 := broadcastInDim S500000 ![] bcast_S_S500000 main_c_11
  let main_v32 : IVec S500000 1 := cmpi .slt main_arg4 main_v31
  let main_v33 : IVec S500000 1 := andi main_v30 main_v32
  fn_part2 (F := F) main_v28 main_v33

def fn {F : FTy → Type} [FloatOps F] (main_arg0 : FVec F S500000x128 .f32) (main_arg1 : FVec F S500000x128 .f32) (main_arg2 : FVec F S500000x64 .f32) (main_arg3 : FVec F S256x64 .f32) (main_arg4 : IVec S500000 32) (main_arg5 : FVec F S128x384 .f32) (main_arg6 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S500000x128 : Shape := ⟨2, ![500000, 128]⟩
abbrev S500000x64 : Shape := ⟨2, ![500000, 64]⟩
abbrev S256x64 : Shape := ⟨2, ![256, 64]⟩
abbrev S500000 : Shape := ⟨1, ![500000]⟩
abbrev S128x384 : Shape := ⟨2, ![128, 384]⟩
abbrev S128 : Shape := ⟨1, ![128]⟩
abbrev S_ : Shape := ⟨0, ![]⟩
abbrev S500000x1 : Shape := ⟨2, ![500000, 1]⟩
abbrev S384x128 : Shape := ⟨2, ![384, 128]⟩
abbrev S1x128 : Shape := ⟨2, ![1, 128]⟩
abbrev S64x128 : Shape := ⟨2, ![64, 128]⟩
abbrev S256x128 : Shape := ⟨2, ![256, 128]⟩
abbrev S4000x128 : Shape := ⟨2, ![4000, 128]⟩
abbrev S4000x64 : Shape := ⟨2, ![4000, 64]⟩
abbrev S4000x1 : Shape := ⟨2, ![4000, 1]⟩
abbrev S1x256 : Shape := ⟨2, ![1, 256]⟩
abbrev S4000x256 : Shape := ⟨2, ![4000, 256]⟩
abbrev S128x128 : Shape := ⟨2, ![128, 128]⟩

abbrev nBuf : Space → Nat
  | .hbm => 21
  | .vmem => 13
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S256x64, .f32⟩
  | .hbm, ⟨4, _⟩ => ⟨S500000, .i32⟩
  | .hbm, ⟨5, _⟩ => ⟨S128x384, .f32⟩
  | .hbm, ⟨6, _⟩ => ⟨S128, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S384x128, .f32⟩
  | .hbm, ⟨17, _⟩ => ⟨S1x128, .f32⟩
  | .hbm, ⟨18, _⟩ => ⟨S64x128, .f32⟩
  | .hbm, ⟨19, _⟩ => ⟨S256x128, .f32⟩
  | .hbm, ⟨20, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S4000x1, .i32⟩
  | .local _ .vmem, ⟨7, _⟩ => ⟨S4000x1, .i32⟩
  | .local _ .vmem, ⟨8, _⟩ => ⟨S256x128, .f32⟩
  | .local _ .vmem, ⟨9, _⟩ => ⟨S384x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S500000 : S_.BroadcastsInDim S500000 (![] : Fin 0 → Fin S500000.rank)
  shapeCasts_S500000_S500000x1 : S500000.ShapeCasts S500000x1
  transposes_S128x384_S384x128_1_0 : S128x384.Transposes [1, 0] S384x128
  shapeCasts_S128_S1x128 : S128.ShapeCasts S1x128
  slices_S384x128_S64x128_320_0 : S384x128.Slices ![320, 0] S64x128
  iota_S1x256_d1_w32 : S1x256.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  broadcasts_S1x256_S4000x256 : S1x256.Broadcasts S4000x256
  natLt_1_32 : 1 < 32
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S64x128_256_0 : ∀ a, (![256, 0] : Fin 2 → Nat) a + S64x128.size a ≤ S384x128.size a
  h_S64x128 : 0 < S64x128.numel
  shapeCasts_S64x128_S64x128 : S64x128.ShapeCasts S64x128
  inb_S4000x128_S4000x128_0_0 : ∀ a, (![0, 0] : Fin 2 → Nat) a + S4000x128.size a ≤ S4000x128.size a
  h_S4000x128 : 0 < S4000x128.numel
  inb_S4000x64_S4000x64_0_0 : ∀ a, (![0, 0] : Fin 2 → Nat) a + S4000x64.size a ≤ S4000x64.size a
  h_S4000x64 : 0 < S4000x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  dot_S256x64_S64x128_S256x128_1_0_0_1_n_n_wf : DotDims.WF S256x64 S64x128 S256x128 [1] [0] [0] [1] [] []
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S500000x64.size a
  hwx0_2 : ∀ i : grid0.Coords, EltTy.bits .f32 = 32 ∨ (Rect.block (s := S500000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S500000x1.size a
  hwx0_3 : ∀ i : grid0.Coords, EltTy.bits .i32 = 32 ∨ (Rect.block (s := S500000x1) S4000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S500000x128.size a
  hwx0_7 : ∀ i : grid0.Coords, EltTy.bits .f32 = 32 ∨ (Rect.block (s := S500000x128) S4000x128.size (cc0_transform_7 i) (hinb0_7 i)).WholeWords (EltTy.packing .f32)

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S256x64 : Shape := ⟨2, ![256, 64]⟩
abbrev S500000 : Shape := ⟨1, ![500000]⟩
abbrev S128x384 : Shape := ⟨2, ![128, 384]⟩
abbrev S128 : Shape := ⟨1, ![128]⟩
abbrev S_ : Shape := ⟨0, ![]⟩
abbrev S500000x1 : Shape := ⟨2, ![500000, 1]⟩
abbrev S500000x384 : Shape := ⟨2, ![500000, 384]⟩
abbrev S384x128 : Shape := ⟨2, ![384, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S256x64, .f32⟩
  | .hbm, ⟨4, _⟩ => ⟨S500000, .i32⟩
  | .hbm, ⟨5, _⟩ => ⟨S128x384, .f32⟩
  | .hbm, ⟨6, _⟩ => ⟨S128, .f32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x64, .f32⟩
  | .hbm, ⟨16, _⟩ => ⟨S500000x384, .f32⟩
  | .hbm, ⟨17, _⟩ => ⟨S384x128, .f32⟩
  | .hbm, ⟨18, _⟩ => ⟨S500000x128, .f32⟩
  | .hbm, ⟨19, _⟩ => ⟨S1x128, .f32⟩
  | .hbm, ⟨20, _⟩ => ⟨S500000x128, .f32⟩
  | .hbm, ⟨21, _⟩ => ⟨S500000x128, .f32⟩
  | .hbm, ⟨22, _⟩ => ⟨S_, .f32⟩
  | .hbm, ⟨23, _⟩ => ⟨S500000x128, .f32⟩
  | .hbm, ⟨24, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  transposes_S128x384_S384x128_1_0 : S128x384.Transposes [1, 0] S384x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  gather_S256x64_S500000x1_S500000x64_1_0_n_n_0_1_164_wf : GatherDims.WF S256x64 S500000x1 S500000x64 [1] [0] [] [0] [] 1 ![1, 64]
  dot_S500000x384_S384x128_S500000x128_1_0_0_1_n_n_wf : DotDims.WF S500000x384 S384x128 S500000x128 [1] [0] [0] [1] [] []

variable [Facts₀]

def gather_S256x64_S500000x1_S500000x64_1_0_n_n_0_1_164 : GatherDims S256x64 S500000x1 S500000x64 where
  offsetDims := [1]
  collapsedSliceDims := [0]
  operandBatchingDims := []
  startIndicesBatchingDims := []
  startIndexMap := [0]
  indexVectorDim := 1
  sliceSizes := ![1, 64]
  wf := gather_S256x64_S500000x1_S500000x64_1_0_n_n_0_1_164_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf

class Facts : Prop extends Facts₀ where

variable [Facts]
-- ==== Proof.Spec.lean ====
/-
  The edge layer as one function of its arguments, and the algebra that joins its two spellings.

  For every edge e and output feature o the layer computes

      out[e, o] = max (Σ_k x[e, k] · W[o, k] + b[o]) 0,        x[e, ·] = src[e, ·] ++ dest[e, ·] ++ edge[e, ·] ++ u[batch[e], ·],

  a sum over the 384 concatenated input features. Splitting the 384 features into their four segments (128 + 128 + 64 + 64)
  turns the sum into four sums, one per segment; only commutativity and associativity of addition on the extended reals
  are used, so nothing needs to be finite. The segment that comes from the table u can also be produced by multiplying
  a one-hot row (1 at column batch[e], 0 elsewhere) into the table u · W_uᵀ: a sum of indicator · value over the 256 rows
  collapses to the one selected value, because 0 · x = 0 and 1 · x = x for EVERY extended real x.

  A graph index is admissible when it names a row of u: 0 ≤ batch[e] < 256 as a signed 32-bit word. For such a word, clamping
  it into [0, 255] leaves it unchanged, and so does the wrap of negative indices (adding 256 to a negative word).
-/
import Idealize.ShloMosaic.Lib.ValueIdx
import Idealize.ShloMosaic.Lib.Affine

noncomputable section

open scoped BigOperators

namespace Cert.EdgeLinear

open Idealize.ShloMosaic Idealize.ShloMosaic.ValueIdx

/-! ## Sums -/

/-- A sum of indicator · value over a finite range is the value at the indicated place: 0 · x = 0 and 1 · x = x hold for
    every extended real, infinite ones included. -/
theorem sum_onehot_mul {n : Nat} (r : Fin n) (oh f : Fin n → EReal) (h1 : oh r = 1) (h0 : ∀ c, c ≠ r → oh c = 0) :
    ∑ c, oh c * f c = f r := by
  rw [Finset.sum_eq_single r]
  · rw [h1, one_mul]
  · intro c _ hc
    rw [h0 c hc, zero_mul]
  · intro h
    exact absurd (Finset.mem_univ r) h

/-- A sum over m + n consecutive places is the sum over the first m plus the sum over the last n. -/
theorem sum_fin_split {M : Type} [AddCommMonoid M] (m n N : Nat) (h : N = m + n) (f : Fin N → M) :
    ∑ i, f i = ∑ i : Fin m, f ⟨i.val, by omega⟩ + ∑ i : Fin n, f ⟨m + i.val, by omega⟩ := by
  subst h
  rw [Fin.sum_univ_add]
  rfl

/-- The 384 input features split into their four segments: 128 + 128 + 64 + 64. -/
theorem sum384_split (X : Fin 384 → EReal) :
    ∑ k : Fin 384, X k
      = ((∑ k : Fin 128, X ⟨k.val, by omega⟩ + ∑ k : Fin 128, X ⟨128 + k.val, by omega⟩)
          + ∑ k : Fin 64, X ⟨256 + k.val, by omega⟩) + ∑ k : Fin 64, X ⟨320 + k.val, by omega⟩ := by
  rw [sum_fin_split 320 64 384 rfl X, sum_fin_split 256 64 320 rfl (fun i => X ⟨i.val, by omega⟩),
    sum_fin_split 128 128 256 rfl (fun i => X ⟨i.val, by omega⟩)]

/-- The table segment first, or last: the same total. -/
theorem segments_comm (U S D E : EReal) : ((U + S) + D) + E = ((S + D) + E) + U := by
  rw [add_comm U S, add_right_comm S U D, add_right_comm (S + D) U E]

/-! ## Graph indices as 32-bit words -/

/-- The word names a row of the 256-row table. -/
def InRange (w : BitVec 32) : Prop := 0 ≤ w.toInt ∧ w.toInt < 256

theorem InRange.toNat_lt {w : BitVec 32} (h : InRange w) : w.toNat < 256 := by
  obtain ⟨h0, h1⟩ := h
  have h32 := w.isLt
  unfold BitVec.toInt at h0 h1
  split at h1 <;> omega

theorem InRange.toInt_eq {w : BitVec 32} (h : InRange w) : w.toInt = (w.toNat : Int) := by
  have hlt := h.toNat_lt
  unfold BitVec.toInt
  rw [if_pos (by omega)]

/-- Clamping an admissible word into [0, 255] (the larger of 0 and the word, then the smaller of 255 and that) leaves it
    as it is. -/
theorem clip_eq {w : BitVec 32} (h : InRange w) : IntOp.minsi 255#32 (IntOp.maxsi 0#32 w) = w := by
  have e0 : (0#32 : BitVec 32).toInt = 0 := by decide
  have e255 : (255#32 : BitVec 32).toInt = 255 := by decide
  have hmax : IntOp.maxsi 0#32 w = w := by
    unfold IntOp.maxsi
    rw [if_neg]
    intro hslt
    rw [BitVec.slt_iff_toInt_lt, e0] at hslt
    have := h.1
    omega
  rw [hmax]
  unfold IntOp.minsi
  rw [if_neg]
  intro hslt
  rw [BitVec.slt_iff_toInt_lt, e255] at hslt
  have := h.2
  omega

/-- Wrapping a negative index (adding 256 when the word is below 0) leaves an admissible word as it is. -/
theorem wrap_eq {w : BitVec 32} (h : InRange w) :
    Scalar.select (IntOp.cmpi .slt w 0#32) (IntOp.addi w 256#32) w = w := by
  have e0 : (0#32 : BitVec 32).toInt = 0 := by decide
  unfold Scalar.select
  rw [if_neg]
  intro hc
  have hlt := IntOp.cmpi_slt.mp hc
  rw [e0] at hlt
  have := h.1
  omega

/-- The one-hot entry of an admissible word against column c, as an extended real: 1 at the word's own column, else 0. -/
theorem onehot_eq {w : BitVec 32} (h : InRange w) (c : Fin 256) :
    (FloatOps.sitofp (F := Ideal) .f32 ((IntOp.cmpi .eq w (BitVec.ofNat 32 c.val)).setWidth 32) : EReal)
      = if c.val = w.toNat then 1 else 0 := by
  have hlt := h.toNat_lt
  by_cases hc : c.val = w.toNat
  · rw [if_pos hc]
    have e : IntOp.cmpi .eq w (BitVec.ofNat 32 c.val) = 1#1 := by
      rw [IntOp.cmpi_eq, hc, BitVec.ofNat_toNat, BitVec.setWidth_eq]
    rw [e]
    show (((((1#1 : BitVec 1).setWidth 32).toInt : ℝ)) : EReal) = 1
    have : ((1#1 : BitVec 1).setWidth 32).toInt = 1 := by decide
    rw [this]; norm_num
  · rw [if_neg hc]
    have e : IntOp.cmpi .eq w (BitVec.ofNat 32 c.val) = 0#1 := by
      apply eq_zero_of_ne_one
      rw [IntOp.cmpi_eq]
      intro hw
      apply hc
      have := congrArg BitVec.toNat hw
      rw [BitVec.toNat_ofNat] at this
      have hc256 := c.isLt
      omega
    rw [e]
    show (((((0#1 : BitVec 1).setWidth 32).toInt : ℝ)) : EReal) = 0
    have : ((0#1 : BitVec 1).setWidth 32).toInt = 0 := by decide
    rw [this]; norm_num

/-! ## The layer -/

/-- The table row an edge selects: its graph index read as a natural number (reduced into the table's 256 rows, which
    changes nothing for an admissible index). -/
def row (batch : IVec ⟨1, ![500000]⟩ 32) (e : Fin 500000) : Fin 256 :=
  ⟨(batch (ix1 e)).toNat % 256, Nat.mod_lt _ (by decide)⟩

theorem row_val {batch : IVec ⟨1, ![500000]⟩ 32} {e : Fin 500000} (h : InRange (batch (ix1 e))) :
    (row batch e).val = (batch (ix1 e)).toNat := Nat.mod_eq_of_lt h.toNat_lt

/-- One output entry: the four segments' contributions (the table's first), the bias, and the rectifier. -/
def edgeLinearAt (src dest : FVec Ideal ⟨2, ![500000, 128]⟩ .f32) (edge : FVec Ideal ⟨2, ![500000, 64]⟩ .f32)
    (u : FVec Ideal ⟨2, ![256, 64]⟩ .f32) (batch : IVec ⟨1, ![500000]⟩ 32) (W : FVec Ideal ⟨2, ![128, 384]⟩ .f32)
    (b : FVec Ideal ⟨1, ![128]⟩ .f32) (e : Fin 500000) (o : Fin 128) : EReal :=
  max (((((∑ j : Fin 64, u (ix2 (row batch e) j) * W (ix2 o (⟨320 + j.val, by omega⟩ : Fin 384)))
          + ∑ k : Fin 128, src (ix2 e k) * W (ix2 o (⟨k.val, by omega⟩ : Fin 384)))
        + ∑ k : Fin 128, dest (ix2 e k) * W (ix2 o (⟨128 + k.val, by omega⟩ : Fin 384)))
      + ∑ k : Fin 64, edge (ix2 e k) * W (ix2 o (⟨256 + k.val, by omega⟩ : Fin 384)))
    + b (ix1 o)) 0

/-- The layer's whole result array. -/
def edgeLinear (src dest : FVec Ideal ⟨2, ![500000, 128]⟩ .f32) (edge : FVec Ideal ⟨2, ![500000, 64]⟩ .f32)
    (u : FVec Ideal ⟨2, ![256, 64]⟩ .f32) (batch : IVec ⟨1, ![500000]⟩ 32) (W : FVec Ideal ⟨2, ![128, 384]⟩ .f32)
    (b : FVec Ideal ⟨1, ![128]⟩ .f32) : FVec Ideal ⟨2, ![500000, 128]⟩ .f32 :=
  fun i => edgeLinearAt src dest edge u batch W b (i 0) (i 1)

end Cert.EdgeLinear

end
-- ==== Proof.RefValue.lean ====
/-
  The reference, read at one output entry.

  The reference wraps negative graph indices (adds 256 below zero), gathers the rows u[batch[e], ·] (a clamped row gather),
  lays the four feature segments side by side, contracts the 384 features against Wᵀ, adds the bias and takes the larger
  of the result and 0. At an entry (e, o) this is the sum over the 384 features, and the sum splits along the four segments:
  feature k < 128 is src[e, k], feature 128 + k is dest[e, k], feature 256 + k is edge[e, k], feature 320 + k is
  u[batch[e], k] for an admissible index; the weight against feature k is W[o, k].
-/
import proofs.«407750_j12077448036505_3_alg».proof.Proof.Gen.ReferenceIdeal.Read
import proofs.«407750_j12077448036505_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.EdgeLinear

/-! ## The row gather -/

/-- The gather's dimension numbers: rows of a [256, 64] table picked by a [500000, 1] column of indices. -/
abbrev rowGather := gather_S256x64_S500000x1_S500000x64_1_0_n_n_0_1_164

/-- On the row axis the gather reads the start index of the result's row, read signed and clamped into [0, 255]. -/
theorem gather_coord0 (idx : IVec S500000x1 32) (y : S500000x64.Idx) :
    (rowGather.operandIdx y idx 0).val
      = min (idx (ix2 (⟨(y 0).val, (y 0).isLt⟩ : Fin 500000) (0 : Fin 1))).toInt.toNat 255 := by
  show rowGather.start y idx 0 + rowGather.batchCoord y 0 + rowGather.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S256x64.rank) ∈ rowGather.startIndexMap from List.mem_singleton.mpr rfl)]
  have hsi : rowGather.siIdx y ⟨List.idxOf (0 : Fin S256x64.rank) rowGather.startIndexMap,
      List.idxOf_lt_length_iff.2 (List.mem_singleton.mpr rfl)⟩
        = ix2 (⟨(y 0).val, (y 0).isLt⟩ : Fin 500000) (0 : Fin 1) := by
    funext b; refine Fin.ext ?_
    match b with
    | ⟨0, _⟩ => rfl
    | ⟨1, _⟩ => rfl
  rw [hsi]
  rfl

/-- On the column axis it reads the result's own column. -/
theorem gather_coord1 (idx : IVec S500000x1 32) (y : S500000x64.Idx) :
    (rowGather.operandIdx y idx 1).val = (y 1).val := by
  show rowGather.start y idx 1 + rowGather.batchCoord y 1 + rowGather.offCoord y 1 = _
  rw [GatherDims.batchCoord_eq_zero _ _ _ List.not_mem_nil]
  unfold GatherDims.start
  rw [dif_neg (show ¬ (1 : Fin S256x64.rank) ∈ rowGather.startIndexMap by decide)]
  unfold GatherDims.offCoord
  rw [dif_pos (show (1 : Fin S256x64.rank) ∈ rowGather.sKept by decide)]
  simp only [Nat.zero_add, Nat.add_zero]
  rfl

/-- For an admissible word, the wrapped index read signed and clamped is the word itself as a natural number. -/
theorem gather_index_word {w : BitVec 32} (h : InRange w) :
    min (Scalar.select (IntOp.cmpi .slt w 0#32) (IntOp.addi w 256#32) w).toInt.toNat 255 = w.toNat := by
  rw [wrap_eq h, h.toInt_eq, Int.toNat_natCast]
  have := h.toNat_lt
  omega

/-- The gathered rows: entry (e, q) of u[batch] is u at row batch[e], column q. -/
theorem gathered_apply (x3 : (⟨S256x64, .f32⟩ : BufTy).Contents (Elt Ideal)) (x4 : (⟨S500000, .i32⟩ : BufTy).Contents (Elt Ideal))
    (e : Fin 500000) (q : Fin 64) (hb : InRange (x4 (ix1 e))) :
    val_main_v6 (F := Ideal) x3 x4 (ix2 e q) = x3 (ix2 (row x4 e) q) := by
  unfold val_main_v6 Host.gather
  refine congrArg x3 (funext fun a => Fin.ext ?_)
  match a with
  | ⟨0, _⟩ =>
    refine (gather_coord0 _ _).trans ?_
    rw [val_main_v5_apply, val_main_v4_apply, val_main_v1_apply, val_main_v3_apply, val_main_v0_apply, val_main_v2_apply,
      val_main_c_apply, val_main_c_0_apply]
    have hi : idx_main_v5 (ix2 (⟨((ix2 e q : S500000x64.Idx) 0).val, ((ix2 e q : S500000x64.Idx) 0).isLt⟩ : Fin 500000) (0 : Fin 1)) = ix1 e := by
      funext b; match b with | ⟨0, _⟩ => rfl
    rw [hi]
    exact (gather_index_word hb).trans (row_val hb).symm
  | ⟨1, _⟩ => exact gather_coord1 _ _

/-! ## The four feature segments -/

section Segments
variable (x0 x1 : (⟨S500000x128, .f32⟩ : BufTy).Contents (Elt Ideal)) (x2 : (⟨S500000x64, .f32⟩ : BufTy).Contents (Elt Ideal))
  (x3 : (⟨S256x64, .f32⟩ : BufTy).Contents (Elt Ideal)) (x4 : (⟨S500000, .i32⟩ : BufTy).Contents (Elt Ideal))

/-- Features 0 … 127 are src's. -/
theorem feature_src (e : Fin 500000) (o : Fin 128) (k : Fin 128) :
    val_main_v7 (F := Ideal) x0 x1 x2 x3 x4 (lidx_main_v9 (ix2 e o) ⟨k.val, by omega⟩) = x0 (ix2 e k) := by
  unfold val_main_v7
  refine concatenate_apply_piece 1 _ _ _ 0 ?_ S500000x128 x0 ?_ ?_ 0 ?_ (ix2 e k) ?_ ?_
  · show (0 : Nat) < 4; omega
  · rfl
  · rfl
  · rfl
  · intro b hb
    match b with
    | ⟨0, _⟩ => rfl
    | ⟨1, _⟩ => exact absurd rfl hb
  · exact Nat.zero_add _

/-- Features 128 … 255 are dest's. -/
theorem feature_dest (e : Fin 500000) (o : Fin 128) (k : Fin 128) :
    val_main_v7 (F := Ideal) x0 x1 x2 x3 x4 (lidx_main_v9 (ix2 e o) ⟨128 + k.val, by omega⟩) = x1 (ix2 e k) := by
  unfold val_main_v7
  refine concatenate_apply_piece 1 _ _ _ 1 ?_ S500000x128 x1 ?_ ?_ 128 ?_ (ix2 e k) ?_ ?_
  · show (1 : Nat) < 4; omega
  · rfl
  · rfl
  · rfl
  · intro b hb
    match b with
    | ⟨0, _⟩ => rfl
    | ⟨1, _⟩ => exact absurd rfl hb
  · rfl

/-- Features 256 … 319 are the edge attributes. -/
theorem feature_edge (e : Fin 500000) (o : Fin 128) (k : Fin 64) :
    val_main_v7 (F := Ideal) x0 x1 x2 x3 x4 (lidx_main_v9 (ix2 e o) ⟨256 + k.val, by omega⟩) = x2 (ix2 e k) := by
  unfold val_main_v7
  refine concatenate_apply_piece 1 _ _ _ 2 ?_ S500000x64 x2 ?_ ?_ 256 ?_ (ix2 e k) ?_ ?_
  · show (2 : Nat) < 4; omega
  · rfl
  · rfl
  · rfl
  · intro b hb
    match b with
    | ⟨0, _⟩ => rfl
    | ⟨1, _⟩ => exact absurd rfl hb
  · rfl

/-- Features 320 … 383 are the gathered table rows. -/
theorem feature_table (e : Fin 500000) (o : Fin 128) (k : Fin 64) :
    val_main_v7 (F := Ideal) x0 x1 x2 x3 x4 (lidx_main_v9 (ix2 e o) ⟨320 + k.val, by omega⟩)
      = val_main_v6 (F := Ideal) x3 x4 (ix2 e k) := by
  unfold val_main_v7
  refine concatenate_apply_piece 1 _ _ _ 3 ?_ S500000x64 (val_main_v6 (F := Ideal) x3 x4) ?_ ?_ 320 ?_ (ix2 e k) ?_ ?_
  · show (3 : Nat) < 4; omega
  · rfl
  · rfl
  · rfl
  · intro b hb
    match b with
    | ⟨0, _⟩ => rfl
    | ⟨1, _⟩ => exact absurd rfl hb
  · rfl

end Segments

/-- The weight against feature k at output o is W[o, k]. -/
theorem weight_apply (x5 : (⟨S128x384, .f32⟩ : BufTy).Contents (Elt Ideal)) (e : Fin 500000) (o : Fin 128) (k : Fin 384) :
    val_main_v8 (F := Ideal) x5 (ridx_main_v9 (ix2 e o) k) = x5 (ix2 o k) := by
  rw [val_main_v8_apply]
  refine congrArg x5 (funext fun a => Fin.ext ?_)
  match a with
  | ⟨0, _⟩ => rfl
  | ⟨1, _⟩ => rfl

/-! ## The whole reference -/

/-- THE REFERENCE IS THE LAYER, entry by entry, when every graph index names a row of the table. -/
theorem reference_eq (x0 x1 : (⟨S500000x128, .f32⟩ : BufTy).Contents (Elt Ideal)) (x2 : (⟨S500000x64, .f32⟩ : BufTy).Contents (Elt Ideal))
    (x3 : (⟨S256x64, .f32⟩ : BufTy).Contents (Elt Ideal)) (x4 : (⟨S500000, .i32⟩ : BufTy).Contents (Elt Ideal))
    (x5 : (⟨S128x384, .f32⟩ : BufTy).Contents (Elt Ideal)) (x6 : (⟨S128, .f32⟩ : BufTy).Contents (Elt Ideal))
    (hb : ∀ e : Fin 500000, InRange (x4 (ix1 e))) :
    val_main_v13 (F := Ideal) x0 x1 x2 x3 x4 x5 x6 = edgeLinear x0 x1 x2 x3 x4 x5 x6 := by
  funext i
  obtain ⟨e, o, rfl⟩ : ∃ (e : Fin 500000) (o : Fin 128), i = ix2 e o := ⟨i 0, i 1, eq_ix2 i⟩
  rw [val_main_v13_apply, val_main_v12_apply, val_main_v9_apply, val_main_v11_apply, val_main_v10_apply,
    val_main_call0_v0_apply, val_main_call0_cst_apply, sum384_split]
  simp only [feature_src, feature_dest, feature_edge, feature_table, weight_apply, gathered_apply x3 x4 _ _ (hb _)]
  have hb6 : idx_main_v10 (idx_main_v11 (ix2 e o)) = ix1 o := by
    funext a; match a with | ⟨0, _⟩ => rfl
  rw [hb6]
  unfold edgeLinear edgeLinearAt
  show max (_ + x6 (ix1 o)) (Ideal.ofBits .f32 0#32) = max (_ + x6 (ix1 o)) 0
  rw [Ideal.ofBits_zero_f32]
  exact congrArg (fun t => max (t + x6 (ix1 o)) 0) (segments_comm _ _ _ _).symm

end Cert.ReferenceIdeal.RefValue

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelPayload.lean ====
/-
  The kernel body's accumulator, read at one entry of a tile.

  On a tile of 4000 edges the body builds the one-hot matrix of the tile's graph indices against the 256 table rows,
  multiplies it into the projected table, and adds the three products src · Wₛ, dest · W_d, edge · Wₑ of the tile's blocks
  with the three row bands of Wᵀ. Every change of float format is the identity on the extended reals and every product
  accumulates into zero, so entry (r, o) of the accumulator is four plain sums, the first over the 256 table rows with the
  one-hot factor still in it.
-/
import proofs.«407750_j12077448036505_3_alg».proof.Proof.Gen.KernelIdeal.Skeleton
import proofs.«407750_j12077448036505_3_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The column of graph indices broadcast along the 256 table rows reads, at (r, c), the tile's index r. -/
theorem index_bcast_apply (P0 : IVec S4000x1 32) (h1 : S4000x1.ShapeCasts S4000x1) (h2 : S4000x1.Broadcasts S4000x256)
    (r : Fin 4000) (c : Fin 256) :
    broadcastTo S4000x256 (shapeCast S4000x1 P0 h1) h2 (ix2 r c) = P0 (ix2 r (0 : Fin 1)) := by
  rw [shapeCast_self]
  refine broadcastTo_apply P0 h2 (ix2 r c) (ix2 r (0 : Fin 1)) fun a => ?_
  match a with
  | ⟨0, _⟩ => show r.val = if (4000 : Nat) = 1 then 0 else r.val; rw [if_neg (by decide)]
  | ⟨1, _⟩ => show 0 = if (1 : Nat) = 1 then 0 else c.val; rw [if_pos rfl]

/-- The row of table-row numbers broadcast along the tile reads, at (r, c), the number c. -/
theorem iota_bcast_apply (h3 : S1x256.Iotas .tc 32 [1]) (h4 : S1x256.Broadcasts S4000x256) (r : Fin 4000) (c : Fin 256) :
    broadcastTo S4000x256 (iota .tc S1x256 32 [1] h3) h4 (ix2 r c) = BitVec.ofNat 32 c.val := by
  refine (broadcastTo_apply _ h4 (ix2 r c) (ix2 (0 : Fin 1) c) fun a => ?_).trans ?_
  · match a with
    | ⟨0, _⟩ => show 0 = if (1 : Nat) = 1 then 0 else r.val; rw [if_pos rfl]
    | ⟨1, _⟩ => show c.val = if (256 : Nat) = 1 then 0 else c.val; rw [if_neg (by decide)]
  · exact iota_single_apply .tc S1x256 32 1 h3 _

/-- THE ACCUMULATOR AT (r, o): the one-hot row of the tile's index r against the projected table, plus the three block
    products. -/
theorem pay2_apply (P0 : Vec Ideal S4000x1 .i32) (P1 : Vec Ideal S256x128 .f32) (P2 P3 : Vec Ideal S128x128 .f32)
    (P4 : Vec Ideal S64x128 .f32) (P5 P6 : Vec Ideal S4000x128 .f32) (P7 : Vec Ideal S4000x64 .f32) (r : Fin 4000) (o : Fin 128) :
    k0_pay2 (F := Ideal) P0 P1 P2 P3 P4 P5 P6 P7 (ix2 r o)
      = (((∑ c : Fin 256, (FloatOps.sitofp (F := Ideal) .f32 ((IntOp.cmpi .eq (P0 (ix2 r (0 : Fin 1))) (BitVec.ofNat 32 c.val)).setWidth 32) : EReal)
              * P1 (ix2 c o))
            + ∑ k : Fin 128, P5 (ix2 r k) * P2 (ix2 k o))
          + ∑ k : Fin 128, P6 (ix2 r k) * P3 (ix2 k o))
        + ∑ k : Fin 64, P7 (ix2 r k) * P4 (ix2 k o) := by
  unfold k0_pay2
  refine congrArg₂ (· + ·) (congrArg₂ (· + ·) (congrArg₂ (· + ·) ?_ ?_) ?_) ?_
  · refine (Cert.Matmul.matmul_plain_apply (M := 4000) (K := 256) (N := 128) none _ _ r o).trans ?_
    refine Finset.sum_congr rfl fun c _ => ?_
    refine congrArg₂ (· * ·) ?_ ?_
    · show (FloatOps.sitofp (F := Ideal) .f32 ((IntOp.cmpi .eq (broadcastTo S4000x256 (shapeCast S4000x1 P0 _) _ (ix2 r c))
          (broadcastTo S4000x256 (iota .tc S1x256 32 [1] _) _ (ix2 r c))).setWidth 32) : EReal) = _
      rw [index_bcast_apply, iota_bcast_apply]
    · show shapeCast S256x128 P1 _ (ix2 c o) = _
      rw [shapeCast_self]
  · refine (Cert.Matmul.matmul_plain_apply (M := 4000) (K := 128) (N := 128) none _ _ r o).trans ?_
    refine Finset.sum_congr rfl fun k _ => ?_
    refine congrArg₂ (· * ·) rfl ?_
    show shapeCast S128x128 P2 _ (ix2 k o) = _
    rw [shapeCast_self]
  · refine (Cert.Matmul.matmul_plain_apply (M := 4000) (K := 128) (N := 128) none _ _ r o).trans ?_
    refine Finset.sum_congr rfl fun k _ => ?_
    refine congrArg₂ (· * ·) rfl ?_
    show shapeCast S128x128 P3 _ (ix2 k o) = _
    rw [shapeCast_self]
  · refine (Cert.Matmul.matmul_plain_apply (M := 4000) (K := 64) (N := 128) none _ _ r o).trans ?_
    refine Finset.sum_congr rfl fun k _ => ?_
    refine congrArg₂ (· * ·) rfl ?_
    show shapeCast S64x128 P4 _ (ix2 k o) = _
    rw [shapeCast_self]

end Cert.KernelIdeal.Payload

end
-- ==== Proof.KernelTile.lean ====
/-
  What one grid point stores, for arbitrary blocks.

  A point loads its tile's blocks (4000 rows of src, dest, the edge attributes and the graph indices), the whole projected
  table, the three row bands of Wᵀ (rows 0 … 127, 128 … 255, 256 … 319) and the bias row, and stores the rectified
  accumulator plus bias. Entry (r, o) of what it stores is therefore the larger of 0 and the one-hot product, the three
  block products and the bias at o.
-/
import proofs.«407750_j12077448036505_3_alg».proof.Proof.Gen.KernelIdeal.Value
import proofs.«407750_j12077448036505_3_alg».proof.Proof.KernelPayload

noncomputable section

open scoped BigOperators

namespace Cert.KernelIdeal.Tile

open Cert.KernelIdeal Cert.KernelIdeal.Gen Cert.KernelIdeal.Payload Idealize.ShloMosaic Idealize.ShloMosaic.ValueIdx

/-- A load of a row band of Wᵀ starting at row `off` reads row `off + k` at its own row k. -/
theorem band_apply (x5 : Vec Ideal S384x128 .f32) (off : Nat) (K : Nat) (sz : Fin 2 → Nat) (hsz0 : sz 0 = K) (hsz1 : sz 1 = 128)
    (inb : ∀ a, (![off, 0] : Fin 2 → Nat) a + sz a ≤ S384x128.size a) (hK : off + K ≤ 384) (k : Fin K) (o : Fin 128)
    (y : (Rect.unit (s := S384x128) ![off, 0] sz inb).shape.Idx) (hy0 : (y 0).val = k.val) (hy1 : (y 1).val = o.val) :
    View.ld x5 (Rect.unit (s := S384x128) ![off, 0] sz inb) y = x5 (ix2 (⟨off + k.val, by omega⟩ : Fin 384) o) := by
  refine congrArg x5 (funext fun a => Fin.ext ?_)
  match a with
  | ⟨0, _⟩ => show off + 1 * (y 0).val = off + k.val; rw [hy0]; omega
  | ⟨1, _⟩ => show 0 + 1 * (y 1).val = o.val; rw [hy1]; omega

theorem hz : (![0, 0] : Fin 2 → Nat) = fun _ => 0 := funext fun a => by fin_cases a <;> rfl

/-- WHAT A POINT STORES AT (r, o), for arbitrary blocks. -/
theorem out_apply (x0 x1 : Vec Ideal S4000x128 .f32) (x2 : Vec Ideal S4000x64 .f32) (x3 : Vec Ideal S4000x1 .i32)
    (x4 : Vec Ideal S256x128 .f32) (x5 : Vec Ideal S384x128 .f32) (x6 : Vec Ideal S1x128 .f32) (r : Fin 4000) (o : Fin 128) :
    out0_7 (F := Ideal) x0 x1 x2 x3 x4 x5 x6 (ix2 r o)
      = max (((((∑ c : Fin 256, (FloatOps.sitofp (F := Ideal) .f32 ((IntOp.cmpi .eq (x3 (ix2 r (0 : Fin 1))) (BitVec.ofNat 32 c.val)).setWidth 32) : EReal)
                  * x4 (ix2 c o))
                + ∑ k : Fin 128, x0 (ix2 r k) * x5 (ix2 (⟨k.val, by omega⟩ : Fin 384) o))
              + ∑ k : Fin 128, x1 (ix2 r k) * x5 (ix2 (⟨128 + k.val, by omega⟩ : Fin 384) o))
            + ∑ k : Fin 64, x2 (ix2 r k) * x5 (ix2 (⟨256 + k.val, by omega⟩ : Fin 384) o))
          + x6 (ix2 (0 : Fin 1) o)) 0 := by
  unfold out0_7
  rw [Cert.KernelIdeal.Value.canon7_eq]
  simp only [View.ld_unit_zero (S := S4000x1) hz, View.ld_unit_zero (S := S256x128) hz, View.ld_unit_zero (S := S4000x128) hz,
    View.ld_unit_zero (S := S4000x64) hz, View.ld_unit_zero (S := S1x128) hz]
  show max (k0_pay2 (F := Ideal) x3 x4 (View.ld x5 r0_2) (View.ld x5 r0_3) (View.ld x5 r0_4) x0 x1 x2 (Cert.KernelIdeal.Value.ix7_0 (ix2 r o))
      + x6 (Cert.KernelIdeal.Value.ix7_1 (ix2 r o))) (Ideal.ofBits .f32 0x00000000#32) = _
  have h0 : Cert.KernelIdeal.Value.ix7_0 (ix2 r o) = ix2 r o := by
    funext a; match a with | ⟨0, _⟩ => rfl | ⟨1, _⟩ => rfl
  rw [h0, pay2_apply, Ideal.ofBits_zero_f32]
  refine congrArg₂ max (congrArg₂ (· + ·) (congrArg₂ (· + ·) (congrArg₂ (· + ·) (congrArg₂ (· + ·) rfl ?_) ?_) ?_) ?_) rfl
  · refine Finset.sum_congr rfl fun k _ => congrArg₂ (· * ·) rfl ?_
    refine (band_apply x5 0 128 _ rfl rfl _ (by omega) k o _ rfl rfl).trans ?_
    exact congrArg x5 (funext fun a => Fin.ext (by match a with | ⟨0, _⟩ => exact Nat.zero_add _ | ⟨1, _⟩ => rfl))
  · refine Finset.sum_congr rfl fun k _ => congrArg₂ (· * ·) rfl ?_
    exact band_apply x5 128 128 _ rfl rfl _ (by omega) k o _ rfl rfl
  · refine Finset.sum_congr rfl fun k _ => congrArg₂ (· * ·) rfl ?_
    exact band_apply x5 256 64 _ rfl rfl _ (by omega) k o _ rfl rfl
  · refine congrArg x6 (funext fun a => Fin.ext ?_)
    match a with
    | ⟨0, _⟩ => rfl
    | ⟨1, _⟩ => rfl

end Cert.KernelIdeal.Tile

end
-- ==== Proof.KernelValue.lean ====
/-
  The kernel's result array is the layer of its arguments.

  Before the grid runs, the host clamps the graph indices into [0, 255] and lays them out as a column, transposes W,
  lays the bias out as a row, and multiplies u into the last 64 rows of Wᵀ (the projected table). Grid point t works on
  edges 4000 t … 4000 t + 3999: its blocks are those rows of src, dest, the edge attributes and the index column, and the whole
  projected table, Wᵀ and bias row. For an admissible index the clamp changes nothing, the one-hot row of the index picks
  that row of the projected table, and that row's entry at o is the table segment's contribution Σ_j u[batch[e], j] · W[o, 320 + j].
  So what point t writes back is rows 4000 t … 4000 t + 3999 of the layer; the 125 points' row blocks tile the 500000 rows,
  so the result array is the layer.
-/
import proofs.«407750_j12077448036505_3_alg».proof.Proof.Gen.KernelIdeal.Value
import proofs.«407750_j12077448036505_3_alg».proof.Proof.KernelTile
import proofs.«407750_j12077448036505_3_alg».proof.Proof.Spec
import Idealize.ShloMosaic.Lib.StableHlo.Run

noncomputable section

open scoped BigOperators

namespace Cert.KernelIdeal.Whole

open Cert.KernelIdeal Cert.KernelIdeal.Gen Cert.KernelIdeal.Tile
open Idealize.ShloMosaic Idealize.ShloMosaic.TcCoe Idealize.SL.Sem Idealize.ShloMosaic.ValueIdx Idealize.ShloMosaic.StableHlo
open Idealize.ShloMosaic.Pipeline (Dat)
open Cert.EdgeLinear

variable (m : (ℓ : Loc nD τ sig) → Buf (Elt Ideal) ℓ) (ρ : Dev nD → PrngReg)

/-! ## The arrays the host prepares -/

/-- The index column: the graph indices clamped into [0, 255], as a [500000, 1] column. -/
theorem host_index (c : Dev nD) : (V m c main_v1 : S500000x1.Idx → BitVec 32)
    = shapeCast S500000x1 (minsi (broadcastInDim S500000 ![] bcast_S_S500000 (constantI S_ 32 255#32))
        (maxsi (broadcastInDim S500000 ![] bcast_S_S500000 (constantI S_ 32 0#32)) (m ((c : Thread nD τ).loc main_arg4))))
        shapeCasts_S500000_S500000x1 := by
  dsimp only [V]
  simp only [hostOps0, hostOps0_1, hostOps0_2, List.flatten_cons, List.flatten_nil, List.append_nil, List.cons_append, List.nil_append]
  after_results <;> rfl

/-- The projected table: u times the last 64 rows of Wᵀ. -/
theorem host_table (c : Dev nD) : (V m c main_v5 : S256x128.Idx → EReal)
    = Host.dotGeneral (F := Ideal) (φ₁ := .f32) (φ₂ := .f32) dot_S256x64_S64x128_S256x128_1_0_0_1_n_n none
        (m ((c : Thread nD τ).loc main_arg3) : FVec Ideal S256x64 .f32)
        (extractStridedSlice S64x128 ![320, 0]
          (transpose S384x128 [1, 0] (m ((c : Thread nD τ).loc main_arg5) : FVec Ideal S128x384 .f32) transposes_S128x384_S384x128_1_0)
          slices_S384x128_S64x128_320_0) := by
  dsimp only [V]
  simp only [hostOps0, hostOps0_1, hostOps0_2, List.flatten_cons, List.flatten_nil, List.append_nil, List.cons_append, List.nil_append]
  after_results <;> rfl

/-- Wᵀ. -/
theorem host_weight (c : Dev nD) : (V m c main_v2 : S384x128.Idx → EReal)
    = transpose S384x128 [1, 0] (m ((c : Thread nD τ).loc main_arg5)) transposes_S128x384_S384x128_1_0 := by
  dsimp only [V]
  simp only [hostOps0, hostOps0_1, hostOps0_2, List.flatten_cons, List.flatten_nil, List.append_nil, List.cons_append, List.nil_append]
  after_results <;> rfl

/-- The bias as a row. -/
theorem host_bias (c : Dev nD) : (V m c main_v3 : S1x128.Idx → EReal)
    = shapeCast S1x128 (m ((c : Thread nD τ).loc main_arg6)) shapeCasts_S128_S1x128 := by
  dsimp only [V]
  simp only [hostOps0, hostOps0_1, hostOps0_2, List.flatten_cons, List.flatten_nil, List.append_nil, List.cons_append, List.nil_append]
  after_results <;> rfl

/-- Entry (e, 0) of the index column is the clamped index of edge e. -/
theorem host_index_apply (c : Dev nD) (e : Fin 500000) :
    (V m c main_v1 : S500000x1.Idx → BitVec 32) (ix2 e (0 : Fin 1))
      = IntOp.minsi 255#32 (IntOp.maxsi 0#32 ((m ((c : Thread nD τ).loc main_arg4) : S500000.Idx → BitVec 32) (ix1 e))) := by
  rw [host_index]
  refine (shapeCast_apply _ shapeCasts_S500000_S500000x1 (ix2 e (0 : Fin 1)) (ix1 e) ?_).trans rfl
  rw [Shape.rowMajor_val_one, Shape.rowMajor_val_two]
  show e.val = e.val * 1 + 0
  omega

/-- Entry (k, o) of Wᵀ is W[o, k]. -/
theorem host_weight_apply (c : Dev nD) (k : Fin 384) (o : Fin 128) :
    (V m c main_v2 : S384x128.Idx → EReal) (ix2 k o)
      = (m ((c : Thread nD τ).loc main_arg5) : S128x384.Idx → EReal) (ix2 o k) := by
  rw [host_weight]
  exact transpose_apply [1, 0] _ transposes_S128x384_S384x128_1_0 (ix2 k o) (ix2 o k) (fun b => match b with
    | ⟨0, _⟩ => rfl
    | ⟨1, _⟩ => rfl)

/-- Entry (0, o) of the bias row is b[o]. -/
theorem host_bias_apply (c : Dev nD) (o : Fin 128) :
    (V m c main_v3 : S1x128.Idx → EReal) (ix2 (0 : Fin 1) o)
      = (m ((c : Thread nD τ).loc main_arg6) : S128.Idx → EReal) (ix1 o) := by
  rw [host_bias]
  refine shapeCast_apply _ shapeCasts_S128_S1x128 (ix2 (0 : Fin 1) o) (ix1 o) ?_
  rw [Shape.rowMajor_val_one, Shape.rowMajor_val_two]
  show o.val = 0 * 128 + o.val
  omega

/-- The table u and the weights W as launched, at their literal types. -/
abbrev aU (c : Dev nD) : FVec Ideal S256x64 .f32 := m ((c : Thread nD τ).loc main_arg3)
abbrev aW (c : Dev nD) : FVec Ideal S128x384 .f32 := m ((c : Thread nD τ).loc main_arg5)
abbrev aBatch (c : Dev nD) : IVec S500000 32 := m ((c : Thread nD τ).loc main_arg4)

/-- Entry (r, o) of the projected table is Σ_j u[r, j] · W[o, 320 + j]. -/
theorem host_table_apply (c : Dev nD) (r : Fin 256) (o : Fin 128) :
    (V m c main_v5 : S256x128.Idx → EReal) (ix2 r o)
      = ∑ j : Fin 64, aU m c (ix2 r j) * aW m c (ix2 o (⟨320 + j.val, by omega⟩ : Fin 384)) := by
  rw [host_table]
  refine (Cert.Matmul.dotGeneral_plain_apply (M := 256) (K := 64) (N := 128) none .single _ _ r o).trans ?_
  refine Finset.sum_congr rfl fun j _ => congrArg₂ (· * ·) rfl ?_
  refine (extractStridedSlice_apply ![320, 0] _ slices_S384x128_S64x128_320_0 (ix2 j o)
    (ix2 (⟨320 + j.val, by omega⟩ : Fin 384) o) (fun a => match a with
      | ⟨0, _⟩ => rfl
      | ⟨1, _⟩ => (Nat.zero_add _).symm)).trans ?_
  exact transpose_apply [1, 0] _ transposes_S128x384_S384x128_1_0 (ix2 (⟨320 + j.val, by omega⟩ : Fin 384) o)
    (ix2 o (⟨320 + j.val, by omega⟩ : Fin 384)) (fun b => match b with
    | ⟨0, _⟩ => rfl
    | ⟨1, _⟩ => rfl)

/-! ## The windows' blocks -/

/-- The printed index maps, decided once over the 125 grid points: the four streamed inputs and the output move with the
    point along the rows; the table, Wᵀ and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 125 := by
  have h := t.isLt
  have hN : cfg0.N = 125 := N_0
  omega

/-- The edge that row r of point t's tile is. -/
abbrev edgeOf (t : Fin cfg0.N) (r : Fin 4000) : Fin 500000 := ⟨4000 * t.val + r.val, by have := t_lt t; omega⟩

theorem blk_src (c : Dev nD) (t : Fin cfg0.N) (r : Fin 4000) (k : Fin 128) :
    (iblk m c 0 t : Vec Ideal S4000x128 .f32) (ix2 r k)
      = (m ((c : Thread nD τ).loc main_arg0) : S500000x128.Idx → EReal) (ix2 (edgeOf t r) k) := by
  have hi := idx_facts t
  unfold iblk
  rw [View.read_apply]
  show V m c main_arg0 _ = _
  rw [V_main_arg0]
  refine congrArg _ (funext fun a => Fin.ext ?_)
  match a with
  | ⟨0, _⟩ => show win0_0.index t (0 : Fin 2) * 4000 + 1 * r.val = 4000 * t.val + r.val; rw [hi.1]; omega
  | ⟨1, _⟩ => show win0_0.index t (1 : Fin 2) * 128 + 1 * k.val = k.val; rw [hi.2.1]; omega

theorem blk_dest (c : Dev nD) (t : Fin cfg0.N) (r : Fin 4000) (k : Fin 128) :
    (iblk m c 1 t : Vec Ideal S4000x128 .f32) (ix2 r k)
      = (m ((c : Thread nD τ).loc main_arg1) : S500000x128.Idx → EReal) (ix2 (edgeOf t r) k) := by
  have hi := idx_facts t
  unfold iblk
  rw [View.read_apply]
  show V m c main_arg1 _ = _
  rw [V_main_arg1]
  refine congrArg _ (funext fun a => Fin.ext ?_)
  match a with
  | ⟨0, _⟩ => show win0_1.index t (0 : Fin 2) * 4000 + 1 * r.val = 4000 * t.val + r.val; rw [hi.2.2.1]; omega
  | ⟨1, _⟩ => show win0_1.index t (1 : Fin 2) * 128 + 1 * k.val = k.val; rw [hi.2.2.2.1]; omega

theorem blk_edge (c : Dev nD) (t : Fin cfg0.N) (r : Fin 4000) (k : Fin 64) :
    (iblk m c 2 t : Vec Ideal S4000x64 .f32) (ix2 r k)
      = (m ((c : Thread nD τ).loc main_arg2) : S500000x64.Idx → EReal) (ix2 (edgeOf t r) k) := by
  have hi := idx_facts t
  unfold iblk
  rw [View.read_apply]
  show V m c main_arg2 _ = _
  rw [V_main_arg2]
  refine congrArg _ (funext fun a => Fin.ext ?_)
  match a with
  | ⟨0, _⟩ => show win0_2.index t (0 : Fin 2) * 4000 + 1 * r.val = 4000 * t.val + r.val; rw [hi.2.2.2.2.1]; omega
  | ⟨1, _⟩ => show win0_2.index t (1 : Fin 2) * 64 + 1 * k.val = k.val; rw [hi.2.2.2.2.2.1]; omega

theorem blk_index (c : Dev nD) (t : Fin cfg0.N) (r : Fin 4000) :
    (iblk m c 3 t : Vec Ideal S4000x1 .i32) (ix2 r (0 : Fin 1))
      = IntOp.minsi 255#32 (IntOp.maxsi 0#32 ((m ((c : Thread nD τ).loc main_arg4) : S500000.Idx → BitVec 32) (ix1 (edgeOf t r)))) := by
  have hi := idx_facts t
  rw [← host_index_apply m c (edgeOf t r)]
  unfold iblk
  rw [View.read_apply]
  show V m c main_v1 _ = V m c main_v1 _
  refine congrArg _ (funext fun a => Fin.ext ?_)
  match a with
  | ⟨0, _⟩ => show win0_3.index t (0 : Fin 2) * 4000 + 1 * r.val = 4000 * t.val + r.val; rw [hi.2.2.2.2.2.2.1]; omega
  | ⟨1, _⟩ => show win0_3.index t (1 : Fin 2) * 1 + 1 * 0 = 0; rw [hi.2.2.2.2.2.2.2.1]

theorem blk_table (c : Dev nD) (t : Fin cfg0.N) (r : Fin 256) (o : Fin 128) :
    (iblk m c 4 t : Vec Ideal S256x128 .f32) (ix2 r o) = (V m c main_v5 : S256x128.Idx → EReal) (ix2 r o) := by
  have hi := idx_facts t
  unfold iblk
  rw [View.read_apply]
  show V m c main_v5 _ = V m c main_v5 _
  refine congrArg _ (funext fun a => Fin.ext ?_)
  match a with
  | ⟨0, _⟩ => show win0_4.index t (0 : Fin 2) * 256 + 1 * r.val = r.val; rw [hi.2.2.2.2.2.2.2.2.1]; omega
  | ⟨1, _⟩ => show win0_4.index t (1 : Fin 2) * 128 + 1 * o.val = o.val; rw [hi.2.2.2.2.2.2.2.2.2.1]; omega

theorem blk_weight (c : Dev nD) (t : Fin cfg0.N) (k : Fin 384) (o : Fin 128) :
    (iblk m c 5 t : Vec Ideal S384x128 .f32) (ix2 k o)
      = (m ((c : Thread nD τ).loc main_arg5) : S128x384.Idx → EReal) (ix2 o k) := by
  have hi := idx_facts t
  rw [← host_weight_apply m c k o]
  unfold iblk
  rw [View.read_apply]
  show V m c main_v2 _ = V m c main_v2 _
  refine congrArg _ (funext fun a => Fin.ext ?_)
  match a with
  | ⟨0, _⟩ => show win0_5.index t (0 : Fin 2) * 384 + 1 * k.val = k.val; rw [hi.2.2.2.2.2.2.2.2.2.2.1]; omega
  | ⟨1, _⟩ => show win0_5.index t (1 : Fin 2) * 128 + 1 * o.val = o.val; rw [hi.2.2.2.2.2.2.2.2.2.2.2.1]; omega

theorem blk_bias (c : Dev nD) (t : Fin cfg0.N) (o : Fin 128) :
    (iblk m c 6 t : Vec Ideal S1x128 .f32) (ix2 (0 : Fin 1) o)
      = (m ((c : Thread nD τ).loc main_arg6) : S128.Idx → EReal) (ix1 o) := by
  have hi := idx_facts t
  rw [← host_bias_apply m c o]
  unfold iblk
  rw [View.read_apply]
  show V m c main_v3 _ = V m c main_v3 _
  refine congrArg _ (funext fun a => Fin.ext ?_)
  match a with
  | ⟨0, _⟩ => show win0_6.index t (0 : Fin 2) * 1 + 1 * 0 = 0; rw [hi.2.2.2.2.2.2.2.2.2.2.2.2.1]
  | ⟨1, _⟩ => show win0_6.index t (1 : Fin 2) * 128 + 1 * o.val = o.val; rw [hi.2.2.2.2.2.2.2.2.2.2.2.2.2.1]; omega

/-! ## What a point writes back -/

/-- The layer of the arguments as launched. -/
abbrev result (c : Dev nD) : Buf (Elt Ideal) ((c : Thread nD τ).loc main_v6) :=
  edgeLinear (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT t WRITES BACK is rows 4000 t … 4000 t + 3999 of the layer, when every graph index is admissible. -/
theorem flushed_eq (c : Dev nD) (hb : ∀ e : Fin 500000, InRange ((m ((c : Thread nD τ).loc main_arg4) : S500000.Idx → BitVec 32) (ix1 e)))
    (t : Fin cfg0.N) :
    (dats m 0 c).flushed 7 t = ((cfg0.win 7).blk t).view.read (Elt Ideal) (result m c) := by
  have hi := idx_facts t
  rw [Cert.KernelIdeal.Value.flushed7]
  funext j
  obtain ⟨r, o, rfl⟩ : ∃ (r : Fin 4000) (o : Fin 128), j = ix2 r o := ⟨j 0, j 1, eq_ix2 j⟩
  show out0_7 (iblk m c 0 t) (iblk m c 1 t) (iblk m c 2 t) (iblk m c 3 t) (iblk m c 4 t) (iblk m c 5 t) (iblk m c 6 t) (ix2 r o)
    = result m c (((cfg0.win 7).blk t).view.emb (ix2 r o))
  have hemb : ((cfg0.win 7).blk t).view.emb (ix2 r o) = (ix2 (edgeOf t r) o : S500000x128.Idx) := by
    funext a; apply Fin.ext
    match a with
    | ⟨0, _⟩ => show win0_7.index t (0 : Fin 2) * 4000 + 1 * r.val = 4000 * t.val + r.val; rw [hi.2.2.2.2.2.2.2.2.2.2.2.2.2.2.1]; omega
    | ⟨1, _⟩ => show win0_7.index t (1 : Fin 2) * 128 + 1 * o.val = o.val; rw [hi.2.2.2.2.2.2.2.2.2.2.2.2.2.2.2]; omega
  rw [hemb]
  refine (out_apply (iblk m c 0 t) (iblk m c 1 t) (iblk m c 2 t) (iblk m c 3 t) (iblk m c 4 t) (iblk m c 5 t) (iblk m c 6 t) r o).trans ?_
  show _ = edgeLinearAt _ _ _ _ _ _ _ (edgeOf t r) o
  unfold edgeLinearAt
  have hw := hb (edgeOf t r)
  refine congrArg₂ max (congrArg₂ (· + ·) (congrArg₂ (· + ·) (congrArg₂ (· + ·) (congrArg₂ (· + ·) ?_ ?_) ?_) ?_) ?_) rfl
  · -- the one-hot row picks the index's row of the projected table
    rw [blk_index m c t r, clip_eq hw]
    refine (sum_onehot_mul (row (aBatch m c) (edgeOf t r)) _ _ ?_ ?_).trans ?_
    · rw [onehot_eq hw, if_pos (row_val hw)]
    · intro c' hc'
      rw [onehot_eq hw, if_neg]
      intro hcv
      exact hc' (Fin.ext (hcv.trans (row_val hw).symm))
    · exact (blk_table m c t _ o).trans (host_table_apply m c _ o)
  · exact Finset.sum_congr rfl fun k _ => congrArg₂ (· * ·) (blk_src m c t r k) (blk_weight m c t _ o)
  · exact Finset.sum_congr rfl fun k _ => congrArg₂ (· * ·) (blk_dest m c t r k) (blk_weight m c t _ o)
  · exact Finset.sum_congr rfl fun k _ => congrArg₂ (· * ·) (blk_edge m c t r k) (blk_weight m c t _ o)
  · exact blk_bias m c t o

/-! ## The blocks tile the rows -/

/-- An index of the result array is in point t's block iff each coordinate is in the block's range on its axis. -/
theorem mem_blk (t : Fin cfg0.N) (i : S500000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v6).slice (win0_7.rect t)).set ↔ _
  rw [View.set_slice_whole, Rect.mem_set_unit]
  exact Iff.rfl

/-- Every row of the result array is in the block of the point numbered by the row's tile. -/
theorem cover (i : S500000x128.Idx) : ∃ t : Fin cfg0.N, (cfg0.win 7).flush t = true ∧ i ∈ ((cfg0.win 7).blk t).view.set := by
  have hi0 : (i 0).val < 500000 := (i 0).isLt
  have hi1 : (i 1).val < 128 := (i 1).isLt
  have hN : cfg0.N = 125 := N_0
  refine ⟨⟨(i 0).val / 4000, by rw [hN]; omega⟩, flush0_7 _, ?_⟩
  have hf := idx_facts ⟨(i 0).val / 4000, by rw [hN]; omega⟩
  have h70 := hf.2.2.2.2.2.2.2.2.2.2.2.2.2.2.1
  have h71 := hf.2.2.2.2.2.2.2.2.2.2.2.2.2.2.2
  rw [mem_blk]
  intro a
  match a with
  | ⟨0, _⟩ =>
    show win0_7.index _ (0 : Fin 2) * 4000 ≤ (i 0).val ∧ (i 0).val < win0_7.index _ (0 : Fin 2) * 4000 + 4000
    rw [h70]
    show (i 0).val / 4000 * 4000 ≤ (i 0).val ∧ (i 0).val < (i 0).val / 4000 * 4000 + 4000
    omega
  | ⟨1, _⟩ =>
    show win0_7.index _ (1 : Fin 2) * 128 ≤ (i 1).val ∧ (i 1).val < win0_7.index _ (1 : Fin 2) * 128 + 128
    rw [h71]
    omega

/-- THE RESULT ARRAY after the run is the layer of the arguments. -/
theorem final (c : Dev nD) (hb : ∀ e : Fin 500000, InRange ((m ((c : Thread nD τ).loc main_arg4) : S500000.Idx → BitVec 32) (ix1 e))) :
    (dats m 0 c).arrAt 7 cfg0.N = result m c :=
  (dats m 0 c).arrAt_eq_of_cover 7 (result m c) (fun t _ => flushed_eq m c hb t) cover

/-- The run, read: the result array at the layer of the arguments, the arguments unchanged. -/
theorem run (hb : ∀ (c : Dev nD) (e : Fin 500000), InRange ((m ((c : Thread nD τ).loc main_arg4) : S500000.Idx → BitVec 32) (ix1 e))) :
    θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hb c)), (h c).2⟩)
    (Cert.KernelIdeal.Value.run_blocks m ρ)

end Cert.KernelIdeal.Whole

end
-- ==== Proof.Domain.lean ====
/-
  The domain: what the precondition says of the graph indices.

  The precondition's last conjunct is "every graph index is at least 0 and below 256" (signed comparisons of 32-bit
  words, all of them and-ed together). Read back at one edge e it says that batch[e] names a row of the 256-row table.
-/
import proofs.«407750_j12077448036505_3_alg».proof.Pre_finite_inputs
import proofs.«407750_j12077448036505_3_alg».proof.Proof.Spec
import Idealize.ShloMosaic.Lib.ReduceAll

noncomputable section

namespace Cert.Proof.Domain

open Idealize.ShloMosaic Idealize.ShloMosaic.ValueIdx Cert.EdgeLinear

instance : Subsingleton Cert.Pre_finite_inputs.S_.Idx := ⟨fun a b => funext fun d => d.elim0⟩

/-- Where the precondition holds, every graph index is admissible (for any reading of the floats: the conjunct is about
    integer words only). -/
theorem inRange_of_pre {F : FTy → Type} [FloatOps F] [Cert.Pre_finite_inputs.Facts]
    (a0 a1 : FVec F Cert.Pre_finite_inputs.S500000x128 .f32) (a2 : FVec F Cert.Pre_finite_inputs.S500000x64 .f32)
    (a3 : FVec F Cert.Pre_finite_inputs.S256x64 .f32) (a4 : IVec Cert.Pre_finite_inputs.S500000 32)
    (a5 : FVec F Cert.Pre_finite_inputs.S128x384 .f32) (a6 : FVec F Cert.Pre_finite_inputs.S128 .f32)
    (h : Cert.Pre_finite_inputs.fn (F := F) a0 a1 a2 a3 a4 a5 a6 = fun _ => 1#1) (e : Fin 500000) :
    InRange (a4 (ix1 e)) := by
  have h0 := congrFun h ix0
  unfold Cert.Pre_finite_inputs.fn Cert.Pre_finite_inputs.fn_part1 Cert.Pre_finite_inputs.fn_part2 at h0
  dsimp only at h0
  have h1 := (IntOp.andi_eq_one.mp h0).2
  have h2 := Host.reduce_andi_all _ _ _ _ _ h1 (ix1 e)
  obtain ⟨hge, hlt⟩ := IntOp.andi_eq_one.mp h2
  have hge' : IntOp.cmpi .sge (a4 (ix1 e)) 0#32 = 1#1 := hge
  have hlt' : IntOp.cmpi .slt (a4 (ix1 e)) 256#32 = 1#1 := hlt
  have e0 : (0#32 : BitVec 32).toInt = 0 := by decide
  have e256 : (256#32 : BitVec 32).toInt = 256 := by decide
  have g := IntOp.cmpi_sge.mp hge'
  have l := IntOp.cmpi_slt.mp hlt'
  rw [e0] at g
  rw [e256] at l
  exact ⟨g, l⟩

end Cert.Proof.Domain

end
-- ==== Proof.lean ====
/-
  An edge layer of a graph network, tiled, against its plain reference.

  For 500000 edges the layer computes out[e, ·] = max (W · x[e, ·] + b) 0 over the 384 features
  x[e, ·] = src[e, ·] ++ dest[e, ·] ++ edge[e, ·] ++ u[batch[e], ·]. The reference gathers the rows of u, concatenates and
  contracts once. The kernel works on tiles of 4000 edges: it never forms the concatenation but adds four products, one per
  segment, and it replaces the row gather by a one-hot row (is batch[e] equal to column c?) multiplied into the table
  u · W_uᵀ that the host prepares; the host also clamps batch into [0, 255].

  On the extended reals the two agree wherever every graph index names a row of u (0 ≤ batch[e] < 256, the precondition's
  last conjunct): the 384-term sum splits along the four segments by commutativity and associativity alone, the one-hot sum
  collapses to the selected row because 0 · x = 0 and 1 · x = x for every extended real, and clamping or wrapping an
  index that is already in range leaves it alone. No finiteness of the float inputs is used. (Outside that range the two
  programs differ: a negative index wraps to the end of the table in the reference and is clamped to row 0 in the kernel.)

  The three frames are the generated ones (the reference's is its run with the result dropped); the idealization rewrote
  nothing, so there is nothing to preserve.
-/
import proofs.«407750_j12077448036505_3_alg».proof.Defs
import proofs.«407750_j12077448036505_3_alg».proof.Proof.Gen.Kernel
import proofs.«407750_j12077448036505_3_alg».proof.Proof.Gen.Kernel.Skeleton
import proofs.«407750_j12077448036505_3_alg».proof.Proof.Gen.Kernel.Launch
import proofs.«407750_j12077448036505_3_alg».proof.Proof.Gen.Kernel.Points
import proofs.«407750_j12077448036505_3_alg».proof.Proof.Gen.Kernel.Frame
import proofs.«407750_j12077448036505_3_alg».proof.Proof.Gen.KernelIdeal
import proofs.«407750_j12077448036505_3_alg».proof.Proof.Gen.KernelIdeal.Skeleton
import proofs.«407750_j12077448036505_3_alg».proof.Proof.Gen.KernelIdeal.Launch
import proofs.«407750_j12077448036505_3_alg».proof.Proof.Gen.KernelIdeal.Points
import proofs.«407750_j12077448036505_3_alg».proof.Proof.Gen.KernelIdeal.Frame
import proofs.«407750_j12077448036505_3_alg».proof.Proof.Gen.ReferenceIdeal
import proofs.«407750_j12077448036505_3_alg».proof.Proof.Gen.Pre_finite_inputs
import proofs.«407750_j12077448036505_3_alg».proof.Proof.Gen.KernelIdeal.Value
import proofs.«407750_j12077448036505_3_alg».proof.Proof.Gen.ReferenceIdeal.Run
import proofs.«407750_j12077448036505_3_alg».proof.Proof.Gen.ReferenceIdeal.Read
import proofs.«407750_j12077448036505_3_alg».proof.Proof.RefValue
import proofs.«407750_j12077448036505_3_alg».proof.Proof.KernelValue
import proofs.«407750_j12077448036505_3_alg».proof.Proof.Domain
import Idealize.ShloMosaic.Adequacy
import Idealize.ShloMosaic.Init

noncomputable section

namespace Cert.Proof

open Idealize.ShloMosaic Idealize.SL.Sem Idealize.ShloMosaic.ValueIdx Cert.EdgeLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the shared arguments: the kernel's result array by its tiles, the reference's by
    its run read at an entry. -/
theorem algebraic : Cert.algebraic_KernelIdeal_ReferenceIdeal := by
  intro m ρ m' ρ' hpre hagree
  have hb : ∀ (c : Dev Cert.KernelIdeal.nD) (e : Fin 500000),
      InRange ((m ((c.tc : Thread Cert.KernelIdeal.nD Cert.KernelIdeal.τ).loc Cert.KernelIdeal.main_arg4) :
        Cert.KernelIdeal.S500000.Idx → BitVec 32) (ix1 e)) :=
    fun c e => Cert.Proof.Domain.inRange_of_pre _ _ _ _ _ _ _ (hpre c) e
  refine ⟨fun c => Cert.KernelIdeal.Whole.result m c, Cert.KernelIdeal.Whole.run m ρ hb, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.reference_eq _ _ _ _ _ _ _ (hb c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
